-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x1 : Shape := ⟨2, ![16384, 1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x1 : S_.BroadcastsInDim S16384x1 (![] : Fin 0 → Fin S16384x1.rank)
  reducesTo_S16384x1_S_d0_1 : S16384x1.ReducesTo [0, 1] S_

variable [Facts]

def fn {F : FTy → Type} [FloatOps F] (main_arg0 : FVec F S16384 .f32) (main_arg1 : FVec F S16384x1 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384x1 .f32 := Host.absf main_arg1
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  main_v8
-- ==== Kernel.lean ====
abbrev S16384 : Shape := ⟨1, ![16384]⟩
abbrev S16384x1 : Shape := ⟨2, ![16384, 1]⟩
abbrev S_ : Shape := ⟨0, ![]⟩
abbrev S1x16384 : Shape := ⟨2, ![1, 16384]⟩
abbrev S512x1 : Shape := ⟨2, ![512, 1]⟩
abbrev S1x1024 : Shape := ⟨2, ![1, 1024]⟩
abbrev S512x1024 : Shape := ⟨2, ![512, 1024]⟩
abbrev S512 : Shape := ⟨1, ![512]⟩

abbrev nBuf : Space → Nat
  | .hbm => 22
  | .vmem => 9
  | .smem => 0
  | _ => 0

abbrev bufTy : (tb : Table) → Fin (tcTables nBuf tb) → BufTy
  | .hbm, ⟨0, _⟩ => ⟨S16384, .f32⟩
  | .hbm, ⟨1, _⟩ => ⟨S16384x1, .f32⟩
  | .hbm, ⟨2, _⟩ => ⟨S16384, .f32⟩
  | .hbm, ⟨3, _⟩ => ⟨S_, .f32⟩
  | .hbm, ⟨4, _⟩ => ⟨S16384, .f32⟩
  | .hbm, ⟨5, _⟩ => ⟨S16384, .i1⟩
  | .hbm, ⟨6, _⟩ => ⟨S16384, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S1x16384, .f32⟩
  | .hbm, ⟨11, _⟩ => ⟨S1x16384, .f32⟩
  | .hbm, ⟨12, _⟩ => ⟨S16384x1, .f32⟩
  | .hbm, ⟨13, _⟩ => ⟨S16384, .f32⟩
  | .hbm, ⟨14, _⟩ => ⟨S16384, .f32⟩
  | .hbm, ⟨15, _⟩ => ⟨S16384, .f32⟩
  | .hbm, ⟨16, _⟩ => ⟨S16384, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S16384 : S_.BroadcastsInDim S16384 (![] : Fin 0 → Fin S16384.rank)
  shapeCasts_S16384x1_S16384 : S16384x1.ShapeCasts S16384
  shapeCasts_S16384_S16384x1 : S16384.ShapeCasts S16384x1
  shapeCasts_S16384_S1x16384 : S16384.ShapeCasts S1x16384
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  broadcasts_S512x1_S512x1024 : S512x1.Broadcasts S512x1024
  reduces_S512x1024_S512 : S512x1024.Reduces [1] S512
  shapeCasts_S512_S512x1 : S512.ShapeCasts S512x1
  reducesTo_S16384_S_d0 : S16384.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S16384x1.size a
  hwx0_0 : ∀ i : grid0.Coords, EltTy.bits .f32 = 32 ∨ (Rect.block (s := S16384x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x16384.size a
  hwx0_1 : ∀ i : grid0.Coords, EltTy.bits .f32 = 32 ∨ (Rect.block (s := S1x16384) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .f32 = 32 ∨ (Rect.block (s := S16384x1) S512x1.size (cc0_transform_3 i) (hinb0_3 i)).WholeWords (EltTy.packing .f32)

variable [Facts₀]

abbrev win0_0 : Pipeline.Window sig grid0 :=
  Pipeline.Window.ofSpec (Memref.whole main_v6) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384 : Shape := ⟨1, ![16384]⟩
abbrev S16384x1 : Shape := ⟨2, ![16384, 1]⟩
abbrev S_ : Shape := ⟨0, ![]⟩
abbrev S1x16384 : Shape := ⟨2, ![1, 16384]⟩
abbrev S16384x16384 : Shape := ⟨2, ![16384, 16384]⟩

abbrev nBuf : Space → Nat
  | .hbm => 28
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384x1, .f32⟩
  | .hbm, ⟨2, _⟩ => ⟨S16384, .f32⟩
  | .hbm, ⟨3, _⟩ => ⟨S_, .f32⟩
  | .hbm, ⟨4, _⟩ => ⟨S16384, .f32⟩
  | .hbm, ⟨5, _⟩ => ⟨S16384, .i1⟩
  | .hbm, ⟨6, _⟩ => ⟨S16384, .f32⟩
  | .hbm, ⟨7, _⟩ => ⟨S16384, .f32⟩
  | .hbm, ⟨8, _⟩ => ⟨S1x16384, .f32⟩
  | .hbm, ⟨9, _⟩ => ⟨S16384x1, .f32⟩
  | .hbm, ⟨10, _⟩ => ⟨S16384x16384, .f32⟩
  | .hbm, ⟨11, _⟩ => ⟨S16384x16384, .f32⟩
  | .hbm, ⟨12, _⟩ => ⟨S16384x16384, .i1⟩
  | .hbm, ⟨13, _⟩ => ⟨S16384x16384, .f32⟩
  | .hbm, ⟨14, _⟩ => ⟨S16384, .f32⟩
  | .hbm, ⟨15, _⟩ => ⟨S1x16384, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S16384, .f32⟩
  | .hbm, ⟨22, _⟩ => ⟨S16384, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  shapeCasts_S16384x1_S16384 : S16384x1.ShapeCasts S16384
  bcast_S16384_S1x16384_1 : S16384.BroadcastsInDim S1x16384 (![1] : Fin 1 → Fin S1x16384.rank)
  bcast_S16384_S16384x1_0 : S16384.BroadcastsInDim S16384x1 (![0] : Fin 1 → Fin S16384x1.rank)
  bcast_S1x16384_S16384x16384_0_1 : S1x16384.BroadcastsInDim S16384x16384 (![0, 1] : Fin 2 → Fin S16384x16384.rank)
  bcast_S16384x1_S16384x16384_0_1 : S16384x1.BroadcastsInDim S16384x16384 (![0, 1] : Fin 2 → Fin S16384x16384.rank)
  reducesTo_S16384x16384_S16384_d1 : S16384x16384.ReducesTo [1] S16384
  h_S_ : 0 < S_.numel
  reducesTo_S16384_S_d0 : S16384.ReducesTo [0] S_

variable [Facts₀]

class Facts : Prop extends Facts₀ where

variable [Facts]
-- ==== Proof.CasePieces.lean ====
/-
  What each control case of the body leaves behind, as values.

  The body has three cases over the second grid coordinate `j`: the first point of a row of points (`j = 0`) resets the
  carried column to zero and then adds the point's masked lane sums to it; a middle point adds to what the point before
  left; the last point (`j = 15`) adds likewise and copies the carried column to the output block. In every case the
  carried column ends at the body's one computed store, `k0_pay2`, of the three input blocks and of what the column
  held before it (the zero column `k0_pay1` in the first case); the last case's output block is that same column.
-/
import proofs.«179797_j26809185861688_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic
open Idealize.SL Idealize.SL.Sem

namespace Cert.KernelIdeal.Risk

open Cert.KernelIdeal Cert.KernelIdeal.Gen

variable {F : FTy → Type} [FloatOps F]

theorem hz : (![0, 0] : Fin 2 → Nat) = fun _ => 0 := funext fun a => by fin_cases a <;> rfl

/-- A middle point leaves the carried column at the computed store over what it held. -/
theorem scratch_B (c : Dev nD) (i : grid0.Coords) (arg2 : Memref sig .tc .vmem S512x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i)
    (x0 : Vec F S512x1 .f32) (x1 : Vec F S1x1024 .f32) (x2 : Vec F S1x1024 .f32) (xs0 : Vec F S512x1 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread,
    View.ld_unit_zero (S := S512x1) hz, View.ld_unit_zero (S := S1x1024) hz]

/-- The last point of a row leaves the carried column likewise … -/
theorem scratch_C (c : Dev nD) (i : grid0.Coords) (arg2 : Memref sig .tc .vmem S512x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x1 .f32) (x1 : Vec F S1x1024 .f32) (x2 : Vec F S1x1024 .f32) (xs0 : Vec F S512x1 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S512x1) hz, View.ld_unit_zero (S := S1x1024) hz]

/-- … and its output block is that column, read back after the store. -/
theorem out_C (c : Dev nD) (i : grid0.Coords) (arg2 : Memref sig .tc .vmem S512x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x1 .f32) (x1 : Vec F S1x1024 .f32) (x2 : Vec F S1x1024 .f32) (xs0 : Vec F S512x1 .f32) :
    out0_C_3 c i arg2 harg2 arg3 harg3 arg4 harg4 arg5 harg5 arg6 harg6 hc0 hc1 x0 x1 x2 xs0 = k0_pay2 x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S512x1) hz, View.ld_unit_zero (S := S1x1024) hz, View.readCov_unit_zero (S := S512x1) _ hz]

/-- The first point of a row resets the column and adds to the zero column. -/
theorem scratch_A (c : Dev nD) (i : grid0.Coords) (arg2 : Memref sig .tc .vmem S512x1 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i)
    (x0 : Vec F S512x1 .f32) (x1 : Vec F S1x1024 .f32) (x2 : Vec F S1x1024 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread,
    View.ld_unit_zero (S := S512x1) hz, View.ld_unit_zero (S := S1x1024) hz]

end Cert.KernelIdeal.Risk

end
-- ==== Proof.MaskedSum.lean ====
/-
  Sums over the 16384 columns of a row, cut into 16 stretches of 1024 columns.

  A row's risk sum is `∑ j, if T i ≤ T j then w j else 0`. One program adds the columns a stretch of 1024 at a time,
  carrying the partial sum; the other multiplies each weight by the indicator `1` or `0` and adds all 16384 products
  at once. Over the extended reals addition is commutative and associative and `x * 0 = 0`, `x * 1 = x` hold for every
  `x`, so the two agree with no finiteness assumption. The partial sum after `k` stretches is the sum over the first
  `1024 * k` columns; columns are counted by natural numbers (a function on `Fin 16384` extended by zero) so that the
  stretches need no casts.
-/
import Idealize.ShloMosaic.PureOps.Ideal
import Idealize.ShloMosaic.PureOps.Ideal.Laws
import Idealize.ShloMosaic.Lib.ValueIdx

noncomputable section

open Idealize.ShloMosaic

namespace Cert.RiskSum

/-- A function of the 16384 columns, continued by zero past the last column. -/
def ext0 (g : Fin 16384 → EReal) (n : ℕ) : EReal := if h : n < 16384 then g ⟨n, h⟩ else 0

theorem ext0_of_lt (g : Fin 16384 → EReal) (n : ℕ) (h : n < 16384) : ext0 g n = g ⟨n, h⟩ := dif_pos h

/-- Over all 16384 columns the continued function sums to the function's own sum. -/
theorem sum_ext0 (g : Fin 16384 → EReal) : ∑ n ∈ Finset.range 16384, ext0 g n = ∑ j : Fin 16384, g j := by
  rw [← Fin.sum_univ_eq_sum_range]
  exact Finset.sum_congr rfl fun j _ => dif_pos j.isLt

/-- One more stretch of 1024 columns: the sum over the first `k + 1` stretches is the sum over the first `k` plus the
    sum over stretch `k`. -/
theorem sum_stretch_succ (h : ℕ → EReal) (k : ℕ) :
    ∑ n ∈ Finset.range ((k + 1) * 1024), h n
      = ∑ n ∈ Finset.range (k * 1024), h n + ∑ l ∈ Finset.range 1024, h (k * 1024 + l) := by
  rw [Nat.succ_mul, Finset.sum_range_add]

/-- The first stretch alone. -/
theorem sum_stretch_zero (h : ℕ → EReal) :
    ∑ n ∈ Finset.range ((0 + 1) * 1024), h n = ∑ l ∈ Finset.range 1024, h (0 * 1024 + l) := by
  rw [sum_stretch_succ, Nat.zero_mul, Finset.range_zero, Finset.sum_empty, zero_add]

/-- A stretch's 1024 terms, indexed by `Fin 1024`, are the continued function's over that stretch. -/
theorem sum_fin_stretch (g : Fin 16384 → EReal) (k : ℕ) (hk : k < 16) (f : Fin 1024 → EReal)
    (hf : ∀ l : Fin 1024, f l = g ⟨k * 1024 + l.val, by have := l.isLt; omega⟩) :
    ∑ l : Fin 1024, f l = ∑ l ∈ Finset.range 1024, ext0 g (k * 1024 + l) := by
  rw [← Fin.sum_univ_eq_sum_range (fun l => ext0 g (k * 1024 + l)) 1024]
  refine Finset.sum_congr rfl fun l _ => ?_
  rw [hf l, ext0_of_lt]

/-- Keeping a weight where a comparison holds and the zero elsewhere is multiplying it by the comparison's bit read as
    a number: `x * 1 = x` and `x * 0 = 0` for every extended real. -/
theorem select_oge_eq_mul (a b x : EReal) :
    Scalar.select (Ideal.cmp .oge a b) x (Ideal.ofBits .f32 0x00000000#32)
      = x * (((Ideal.cmp .oge a b).toNat : ℝ) : EReal) := by
  rw [Ideal.ofBits_zero_f32]
  unfold Ideal.cmp Scalar.select
  by_cases h : b ≤ a
  · simp [h]
  · simp [h]

end Cert.RiskSum

end
-- ==== Proof.RowPayload.lean ====
/-
  One grid point's arithmetic, read at a row.

  The body's one computed store adds, to the carried partial sums (a column of 512 rows), the lane sum over the point's
  1024 columns of "the column's weight where the column's time is at least the row's time, else zero". Read at row `r`
  over the extended reals it is `acc r + ∑ l, (if t_row r ≤ t_col l then w l else 0)`.
-/
import proofs.«179797_j26809185861688_1_alg».proof.Proof.Gen.KernelIdeal.Skeleton
import proofs.«179797_j26809185861688_1_alg».proof.Proof.MaskedSum
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Risk

open Cert.KernelIdeal Cert.KernelIdeal.Gen

/-- The index the lane sum inserts at row `r`, lane `l`, is `(r, l)`. -/
theorem lift_row (r : Fin 512) (l : Fin 1024) :
    reduces_S512x1024_S512.lift (ix1 r) l = (ix2 r l : S512x1024.Idx) := by
  funext a
  match a with
  | ⟨0, _⟩ => rfl
  | ⟨1, _⟩ => rfl

/-- A row of 1024 lanes broadcast down 512 rows reads its lane. -/
theorem bcast_lane (x : FVec Ideal S1x1024 .f32) (r : Fin 512) (l : Fin 1024) :
    broadcastTo S512x1024 x broadcasts_S1x1024_S512x1024 (ix2 r l) = x (ix2 0 l) :=
  broadcastTo_apply x broadcasts_S1x1024_S512x1024 (ix2 r l) (ix2 0 l) fun a => by
    match a with
    | ⟨0, _⟩ => show (0 : ℕ) = if (1 : ℕ) = 1 then 0 else _; rw [if_pos rfl]
    | ⟨1, _⟩ => show l.val = if (1024 : ℕ) = 1 then 0 else l.val; rw [if_neg (by decide)]

/-- A column of 512 rows broadcast across 1024 lanes reads its row. -/
theorem bcast_row (x : FVec Ideal S512x1 .f32) (r : Fin 512) (l : Fin 1024) :
    broadcastTo S512x1024 x broadcasts_S512x1_S512x1024 (ix2 r l) = x (ix2 r 0) :=
  broadcastTo_apply x broadcasts_S512x1_S512x1024 (ix2 r l) (ix2 r 0) fun a => by
    match a with
    | ⟨0, _⟩ => show r.val = if (512 : ℕ) = 1 then 0 else r.val; rw [if_neg (by decide)]
    | ⟨1, _⟩ => show (0 : ℕ) = if (1 : ℕ) = 1 then 0 else _; rw [if_pos rfl]

/-- The lane sums, a vector of 512, viewed as a column read at row `r`. -/
theorem column_of_vector (v : FVec Ideal S512 .f32) (r : Fin 512) :
    shapeCast S512x1 v shapeCasts_S512_S512x1 (ix2 r 0) = v (ix1 r) :=
  shapeCast_apply v shapeCasts_S512_S512x1 (ix2 r 0) (ix1 r) (by
    rw [Shape.rowMajor_val_one, Shape.rowMajor_val_two]; show r.val = r.val * 1 + 0; omega)

/-- THE POINT'S ARITHMETIC at row `r`: the carried sum plus the masked lane sum. -/
theorem pay2_row (x0 : FVec Ideal S512x1 .f32) (x1 x2 : FVec Ideal S1x1024 .f32) (acc : FVec Ideal S512x1 .f32)
    (r : Fin 512) :
    k0_pay2 (F := Ideal) x0 x1 x2 acc (ix2 r 0)
      = acc (ix2 r 0) + ∑ l : Fin 1024,
          Scalar.select (Ideal.cmp .oge (x1 (ix2 0 l)) (x0 (ix2 r 0))) (x2 (ix2 0 l)) (Ideal.ofBits .f32 0x00000000#32) := by
  unfold k0_pay2
  simp only [shapeCast_self]
  refine congrArg (acc (ix2 r 0) + ·) ?_
  refine (column_of_vector _ r).trans ?_
  refine (Ideal.multiReduction_add_single _ _ reduces_S512x1024_S512 (.inl rfl) rfl (ix1 r)).trans ?_
  refine Finset.sum_congr rfl fun l _ => ?_
  rw [lift_row r l]
  show Scalar.select (Ideal.cmp .oge (broadcastTo S512x1024 x1 broadcasts_S1x1024_S512x1024 (ix2 r l))
      (broadcastTo S512x1024 x0 broadcasts_S512x1_S512x1024 (ix2 r l)))
      (broadcastTo S512x1024 x2 broadcasts_S1x1024_S512x1024 (ix2 r l)) (Ideal.ofBits .f32 0x00000000#32) = _
  rw [bcast_lane x1 r l, bcast_row x0 r l, bcast_lane x2 r l]

/-- The reset stores the zero column. -/
theorem pay1_row (r : Fin 512) : k0_pay1 (F := Ideal) (ix2 r 0) = 0 := by
  unfold k0_pay1
  simp only [shapeCast_self]
  exact Ideal.ofBits_zero_f32

end Cert.KernelIdeal.Risk

end
-- ==== Proof.BlockReads.lean ====
/-
  The blocks a grid point sees, and the arrays they are cut from.

  The grid is 32 × 16: point `t` has first coordinate `t / 16` (which 512 rows) and second `t % 16` (which 1024
  columns). The row block is rows `512 (t / 16) + r` of the times as a column; the two lane blocks are columns
  `1024 (t % 16) + l` of the times and of the weights as rows. The three arrays are written by the host before the
  region: the times `|y|` reshaped to a column and to a row, the weights `exp ŷ` reshaped to a row.
-/
import proofs.«179797_j26809185861688_1_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.ShloMosaic.ValueIdx
open Idealize.SL Idealize.SL.Sem

namespace Cert.KernelIdeal.Risk

open Cert.KernelIdeal Cert.KernelIdeal.Gen

variable {F : FTy → Type} [FloatOps F]
variable (m : (ℓ : Loc nD τ sig) → Buf (Elt F) ℓ)

/-- The printed index maps over the grid: the row windows follow the first coordinate, the lane windows the second. -/
theorem idx_facts : ∀ t : Fin cfg0.N,
    win0_0.index t (0 : Fin 2) = t.val / 16 ∧ win0_0.index t (1 : Fin 2) = 0
    ∧ win0_1.index t (0 : Fin 2) = 0 ∧ win0_1.index t (1 : Fin 2) = t.val % 16
    ∧ win0_2.index t (0 : Fin 2) = 0 ∧ win0_2.index t (1 : Fin 2) = t.val % 16
    ∧ win0_3.index t (0 : Fin 2) = t.val / 16 ∧ win0_3.index t (1 : Fin 2) = 0 :=
  (by decide +kernel : ∀ t : Fin grid0.N, _)

theorem point_lt (t : Fin cfg0.N) : t.val < 512 := lt_of_lt_of_eq t.isLt (show cfg0.N = 512 from N_0)

theorem row_lt (t : Fin cfg0.N) (r : Fin 512) : t.val / 16 * 512 + r.val < 16384 := by
  have := point_lt t; have := r.isLt; omega

theorem lane_lt (t : Fin cfg0.N) (l : Fin 1024) : t.val % 16 * 1024 + l.val < 16384 := by
  have := l.isLt; omega

/-- The blocks at point `t` and the arrays, at their literal types. -/
abbrev tblk (c : Dev nD) (t : Fin cfg0.N) : Vec F S512x1 .f32 := iblk m c 0 t
abbrev trow (c : Dev nD) (t : Fin cfg0.N) : Vec F S1x1024 .f32 := iblk m c 1 t
abbrev wrow (c : Dev nD) (t : Fin cfg0.N) : Vec F S1x1024 .f32 := iblk m c 2 t
abbrev tcol (c : Dev nD) : Vec F S16384x1 .f32 := V m c main_v6
abbrev tlane (c : Dev nD) : Vec F S1x16384 .f32 := V m c main_v7
abbrev wlane (c : Dev nD) : Vec F S1x16384 .f32 := V m c main_v8

/-- Row `r` of the row block is row `512 (t / 16) + r` of the time column. -/
theorem tblk_apply (c : Dev nD) (t : Fin cfg0.N) (r : Fin 512) :
    tblk m c t (ix2 r 0) = tcol m c (ix2 ⟨t.val / 16 * 512 + r.val, row_lt t r⟩ 0) := by
  show iblk m c 0 t (ix2 r 0) = _
  unfold iblk
  rw [View.read_apply]
  show V m c main_v6 _ = V m c main_v6 _
  refine congrArg (V m c main_v6) ?_
  obtain ⟨e0, e1, -⟩ := idx_facts t
  funext a
  apply Fin.ext
  match a with
  | ⟨0, _⟩ => show win0_0.index t (0 : Fin 2) * 512 + 1 * r.val = t.val / 16 * 512 + r.val; rw [e0]; omega
  | ⟨1, _⟩ => show win0_0.index t (1 : Fin 2) * 1 + 1 * 0 = 0; rw [e1]

/-- Lane `l` of the time block is column `1024 (t % 16) + l` of the time row. -/
theorem trow_apply (c : Dev nD) (t : Fin cfg0.N) (l : Fin 1024) :
    trow m c t (ix2 0 l) = tlane m c (ix2 0 ⟨t.val % 16 * 1024 + l.val, lane_lt t l⟩) := by
  show iblk m c 1 t (ix2 0 l) = _
  unfold iblk
  rw [View.read_apply]
  show V m c main_v7 _ = V m c main_v7 _
  refine congrArg (V m c main_v7) ?_
  obtain ⟨-, -, e0, e1, -⟩ := idx_facts t
  funext a
  apply Fin.ext
  match a with
  | ⟨0, _⟩ => show win0_1.index t (0 : Fin 2) * 1 + 1 * 0 = 0; rw [e0]
  | ⟨1, _⟩ => show win0_1.index t (1 : Fin 2) * 1024 + 1 * l.val = t.val % 16 * 1024 + l.val; rw [e1]; omega

/-- Lane `l` of the weight block is column `1024 (t % 16) + l` of the weight row. -/
theorem wrow_apply (c : Dev nD) (t : Fin cfg0.N) (l : Fin 1024) :
    wrow m c t (ix2 0 l) = wlane m c (ix2 0 ⟨t.val % 16 * 1024 + l.val, lane_lt t l⟩) := by
  show iblk m c 2 t (ix2 0 l) = _
  unfold iblk
  rw [View.read_apply]
  show V m c main_v8 _ = V m c main_v8 _
  refine congrArg (V m c main_v8) ?_
  obtain ⟨-, -, -, -, e0, e1, -⟩ := idx_facts t
  funext a
  apply Fin.ext
  match a with
  | ⟨0, _⟩ => show win0_2.index t (0 : Fin 2) * 1 + 1 * 0 = 0; rw [e0]
  | ⟨1, _⟩ => show win0_2.index t (1 : Fin 2) * 1024 + 1 * l.val = t.val % 16 * 1024 + l.val; rw [e1]; omega

/-! ## The arrays the host writes before the region -/

/-- The times as a column: `|y|` reshaped. -/
theorem tcol_eq (c : Dev nD) :
    tcol m c = shapeCast S16384x1 (Host.absf (m ((c : Thread nD τ).loc main_arg0))) shapeCasts_S16384_S16384x1 := by
  show StableHlo.after hostOps0 (fun b => m (c, b)) (Proc.devRef .tc main_v6) = _
  after_results <;> rfl

/-- The times as a row. -/
theorem tlane_eq (c : Dev nD) :
    tlane m c = shapeCast S1x16384 (Host.absf (m ((c : Thread nD τ).loc main_arg0))) shapeCasts_S16384_S1x16384 := by
  show StableHlo.after hostOps0 (fun b => m (c, b)) (Proc.devRef .tc main_v7) = _
  after_results <;> rfl

/-- The weights as a row: `exp` of the scores, the scores being `ŷ` reshaped to a vector. -/
theorem wlane_eq (c : Dev nD) :
    wlane m c = shapeCast S1x16384 (Host.exp (shapeCast S16384 (m ((c : Thread nD τ).loc main_arg1)) shapeCasts_S16384x1_S16384))
      shapeCasts_S16384_S1x16384 := by
  show StableHlo.after hostOps0 (fun b => m (c, b)) (Proc.devRef .tc main_v8) = _
  after_results <;> rfl

/-- The scores as the region finds them. -/
theorem V_scores (c : Dev nD) :
    (V m c main_v4 : Vec F S16384 .f32) = shapeCast S16384 (m ((c : Thread nD τ).loc main_arg1)) shapeCasts_S16384x1_S16384 := by
  show StableHlo.after hostOps0 (fun b => m (c, b)) (Proc.devRef .tc main_v4) = _
  after_results <;> rfl

/-- The event indicator as the region finds it: `y > 0` as a float. -/
theorem V_events (c : Dev nD) :
    (V m c main_v3 : Vec F S16384 .f32) = uitofp .f32 (cmpf .ogt (m ((c : Thread nD τ).loc main_arg0))
      (broadcastInDim S16384 ![] bcast_S_S16384 (constant (F := F) S_ .f32 0x00000000#32))) := by
  show StableHlo.after hostOps0 (fun b => m (c, b)) (Proc.devRef .tc main_v3) = _
  after_results <;> rfl

/-! ## The arrays read at an index -/

/-- A vector of 16384 reshaped to a column reads its row. -/
theorem col_apply {α : Type} (v : S16384.Idx → α) (p : Fin 16384) :
    shapeCast S16384x1 v shapeCasts_S16384_S16384x1 (ix2 p 0) = v (ix1 p) :=
  shapeCast_apply v shapeCasts_S16384_S16384x1 (ix2 p 0) (ix1 p) (by
    rw [Shape.rowMajor_val_one, Shape.rowMajor_val_two]; show p.val = p.val * 1 + 0; omega)

/-- A vector of 16384 reshaped to a row reads its column. -/
theorem lane_apply {α : Type} (v : S16384.Idx → α) (k : Fin 16384) :
    shapeCast S1x16384 v shapeCasts_S16384_S1x16384 (ix2 0 k) = v (ix1 k) :=
  shapeCast_apply v shapeCasts_S16384_S1x16384 (ix2 0 k) (ix1 k) (by
    rw [Shape.rowMajor_val_one, Shape.rowMajor_val_two]; show k.val = 0 * 16384 + k.val; omega)

/-- A column of 16384 reshaped to a vector reads its row. -/
theorem vec_of_col_apply {α : Type} (v : S16384x1.Idx → α) (p : Fin 16384) :
    shapeCast S16384 v shapeCasts_S16384x1_S16384 (ix1 p) = v (ix2 p 0) :=
  shapeCast_apply v shapeCasts_S16384x1_S16384 (ix1 p) (ix2 p 0) (by
    rw [Shape.rowMajor_val_one, Shape.rowMajor_val_two]; show p.val * 1 + 0 = p.val; omega)

end Cert.KernelIdeal.Risk

end
-- ==== Proof.Accumulate.lean ====
/-
  The carried column, point by point.

  Write point `n = 16 i + j`. After it, row `r` of the carried column holds the sum of row `512 i + r`'s masked weights
  over the first `1024 (j + 1)` columns: the first point of a row of points starts from zero and adds the first stretch,
  every later point adds its own stretch to what the point before left. At `j = 15` the sum is over all 16384 columns,
  and that column is what the last point copies to the output block.
-/
import proofs.«179797_j26809185861688_1_alg».proof.Proof.CasePieces
import proofs.«179797_j26809185861688_1_alg».proof.Proof.RowPayload
import proofs.«179797_j26809185861688_1_alg».proof.Proof.BlockReads

noncomputable section

open Idealize.ShloMosaic Idealize.ShloMosaic.TcCoe Idealize.ShloMosaic.ValueIdx
open Idealize.SL Idealize.SL.Sem

namespace Cert.KernelIdeal.Risk

open Cert.KernelIdeal Cert.KernelIdeal.Gen Cert.RiskSum

variable (m : (ℓ : Loc nD τ sig) → Buf (Elt Ideal) ℓ)

/-- Row `p`'s masked weight in column `k`: the weight where the column's time is at least the row's, else zero. -/
def masked (c : Dev nD) (p k : Fin 16384) : EReal :=
  Scalar.select (Ideal.cmp .oge (tlane m c (ix2 0 k)) (tcol m c (ix2 p 0))) (wlane m c (ix2 0 k))
    (Ideal.ofBits .f32 0x00000000#32)

/-- Row `p`'s masked weights summed over the first `n` columns. -/
def partialSum (c : Dev nD) (p : Fin 16384) (n : ℕ) : EReal := ∑ x ∈ Finset.range n, ext0 (masked m c p) x

/-- ONE POINT at row `r`: what the column held plus the point's stretch of row `512 (t / 16) + r`'s masked weights. -/
theorem point_row (c : Dev nD) (t : Fin cfg0.N) (acc : FVec Ideal S512x1 .f32) (r : Fin 512) :
    k0_pay2 (F := Ideal) (tblk m c t) (trow m c t) (wrow m c t) acc (ix2 r 0)
      = acc (ix2 r 0) + ∑ l ∈ Finset.range 1024,
          ext0 (masked m c ⟨t.val / 16 * 512 + r.val, row_lt t r⟩) (t.val % 16 * 1024 + l) := by
  rw [pay2_row]
  refine congrArg (acc (ix2 r 0) + ·) ?_
  refine sum_fin_stretch (masked m c ⟨t.val / 16 * 512 + r.val, row_lt t r⟩) (t.val % 16) (Nat.mod_lt _ (by decide)) _ fun l => ?_
  rw [trow_apply, tblk_apply, wrow_apply]
  rfl

/-- THE CARRIED COLUMN after point `n`, at row `r`. -/
theorem carried_eq (c : Dev nD) : ∀ (n : ℕ) (hn : n < cfg0.N) (r : Fin 512),
    (outsAt0 m c n hn).2 (ix2 r 0)
      = partialSum m c ⟨n / 16 * 512 + r.val, row_lt ⟨n, hn⟩ r⟩ ((n % 16 + 1) * 1024)
  | n, hn, r => by
    by_cases h0 : n % 16 = 0
    · have h1 : ¬n % 16 = 15 := by omega
      rw [outsAt0_A m c ⟨n, hn⟩ h0 h1]
      dsimp only
      refine (congrFun (scratch_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩)) (ix2 r 0)).trans ?_
      refine (point_row m c ⟨n, hn⟩ (k0_pay1 (F := Ideal)) r).trans ?_
      rw [pay1_row, zero_add]
      unfold partialSum
      show _ = ∑ x ∈ Finset.range ((n % 16 + 1) * 1024), _
      rw [h0]
      exact (sum_stretch_zero _).symm
    · obtain ⟨k, rfl⟩ : ∃ k, n = k + 1 := ⟨n - 1, by omega⟩
      have ih := carried_eq c k (Nat.lt_of_succ_lt hn) r
      have hN : k + 1 < 512 := lt_of_lt_of_eq hn (show cfg0.N = 512 from N_0)
      have hdiv : (k + 1) / 16 = k / 16 := by omega
      have hmod : (k + 1) % 16 = k % 16 + 1 := by omega
      have step : (outsAt0 m c k (Nat.lt_of_succ_lt hn)).2 (ix2 r 0)
            + ∑ l ∈ Finset.range 1024, ext0 (masked m c ⟨(k + 1) / 16 * 512 + r.val, row_lt ⟨k + 1, hn⟩ r⟩) ((k + 1) % 16 * 1024 + l)
          = partialSum m c ⟨(k + 1) / 16 * 512 + r.val, row_lt ⟨k + 1, hn⟩ r⟩ (((k + 1) % 16 + 1) * 1024) := by
        rw [ih]
        unfold partialSum
        have hp : (⟨k / 16 * 512 + r.val, row_lt ⟨k, Nat.lt_of_succ_lt hn⟩ r⟩ : Fin 16384)
            = ⟨(k + 1) / 16 * 512 + r.val, row_lt ⟨k + 1, hn⟩ r⟩ := Fin.ext (by show k / 16 * 512 + r.val = (k + 1) / 16 * 512 + r.val; rw [hdiv])
        rw [hp, hmod]
        exact (sum_stretch_succ _ (k % 16 + 1)).symm
      by_cases h1 : (k + 1) % 16 = 15
      · rw [outsAt0_C m c ⟨k + 1, hn⟩ h0 h1]
        dsimp only
        refine (congrFun (scratch_C (F := Ideal) c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) scM0_0 (Memref.isWhole_whole _) (fun h => h0 ((hcond0_0 ⟨k + 1, hn⟩).mp h)) ((hcond0_1 ⟨k + 1, hn⟩).mpr h1) (iblk m c 0 ⟨k + 1, hn⟩) (iblk m c 1 ⟨k + 1, hn⟩) (iblk m c 2 ⟨k + 1, hn⟩) (outsAt0 m c k (Nat.lt_of_succ_lt hn)).2) (ix2 r 0)).trans ?_
        exact (point_row m c ⟨k + 1, hn⟩ (outsAt0 m c k (Nat.lt_of_succ_lt hn)).2 r).trans step
      · rw [outsAt0_B m c ⟨k + 1, hn⟩ h0 h1]
        dsimp only
        refine (congrFun (scratch_B (F := Ideal) c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) scM0_0 (Memref.isWhole_whole _) (fun h => h0 ((hcond0_0 ⟨k + 1, hn⟩).mp h)) (fun h => h1 ((hcond0_1 ⟨k + 1, hn⟩).mp h)) (iblk m c 0 ⟨k + 1, hn⟩) (iblk m c 1 ⟨k + 1, hn⟩) (iblk m c 2 ⟨k + 1, hn⟩) (outsAt0 m c k (Nat.lt_of_succ_lt hn)).2) (ix2 r 0)).trans ?_
        exact (point_row m c ⟨k + 1, hn⟩ (outsAt0 m c k (Nat.lt_of_succ_lt hn)).2 r).trans step

/-- At the last point of a row of points the output block is the carried column. -/
theorem out_eq_carried (c : Dev nD) (t : Fin cfg0.N) (h1 : t.val % 16 = 15) :
    (outsAt0 m c t.val t.isLt).1 = (outsAt0 m c t.val t.isLt).2 := by
  have h0 : ¬t.val % 16 = 0 := by omega
  rw [outsAt0_C m c t h0 h1]
  dsimp only
  exact (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans
    (scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).symm

end Cert.KernelIdeal.Risk

end
-- ==== Proof.ResultArray.lean ====
/-
  The result array of the region.

  The output window is written back after the last point of each row of points (`j = 15`), with the carried column,
  which there holds each row's masked weights summed over all 16384 columns. The 32 written blocks tile the column of
  16384 rows, so the array ends holding every row's full sum.
-/
import proofs.«179797_j26809185861688_1_alg».proof.Proof.Accumulate

set_option maxRecDepth 16384

noncomputable section

open Idealize.ShloMosaic Idealize.ShloMosaic.TcCoe Idealize.ShloMosaic.ValueIdx
open Idealize.SL Idealize.SL.Sem
open Idealize.ShloMosaic.Pipeline (Dat)

namespace Cert.KernelIdeal.Risk

open Cert.KernelIdeal Cert.KernelIdeal.Gen Cert.RiskSum

variable (m : (ℓ : Loc nD τ sig) → Buf (Elt Ideal) ℓ)

/-- Every row's masked weights summed over all columns, as a column of 16384 rows. -/
def riskCol (c : Dev nD) : Vec Ideal S16384x1 .f32 := fun i => partialSum m c ⟨(i 0).val, idx2_lt0 i⟩ 16384

/-- The column at an index whose row is `p`. -/
theorem riskCol_apply (c : Dev nD) (i : S16384x1.Idx) (p : Fin 16384) (hp : p.val = (i 0).val) :
    riskCol m c i = partialSum m c p 16384 := by
  unfold riskCol
  exact congrArg (fun q => partialSum m c q 16384) (Fin.ext hp.symm)

/-- The output block of a last point, at a row of the block. -/
theorem out_row (c : Dev nD) (t : Fin cfg0.N) (h15 : t.val % 16 = 15) (j : S512x1.Idx) :
    (outsAt0 m c t.val t.isLt).1 j
      = partialSum m c ⟨t.val / 16 * 512 + (j 0).val, row_lt t ⟨(j 0).val, idx2_lt0 j⟩⟩ 16384 := by
  obtain ⟨r, q, rfl⟩ : ∃ (r : Fin 512) (q : Fin 1), j = ix2 r q := ⟨j 0, j 1, eq_ix2 j⟩
  obtain rfl : q = 0 := Subsingleton.elim _ _
  rw [out_eq_carried m c t h15, carried_eq m c t.val t.isLt r, h15]

set_option maxRecDepth 200000 in
/-- WHAT A WRITE-BACK WRITES is its block of the column of full sums. -/
theorem flushed_eq (c : Dev nD) (t : Fin cfg0.N) (hf : (cfg0.win 3).flush t = true) :
    (dats m 0 c).flushed 3 t = ((cfg0.win 3).blk t).view.read (Elt Ideal) (riskCol m c) := by
  have h15 : t.val % 16 = 15 := (flush0_3 t).mp hf
  show (cfg0.win 3).cut (grid0.coords t) ((dats m 0 c).after 3 t) = _
  rw [after0_3]
  funext j
  rw [View.read_apply]
  refine (out_row m c t h15 ((cfg0.win 3).xinj (grid0.coords t) j)).trans ?_
  refine (riskCol_apply m c _ _ ?_).symm
  obtain ⟨-, -, -, -, -, -, e0, -⟩ := idx_facts t
  show t.val / 16 * 512 + (j 0).val = win0_3.index t (0 : Fin 2) * 512 + 1 * (j 0).val
  rw [e0]; omega

/-- The point that writes row `p` back: the last of its row of points. -/
def flushPoint (p : ℕ) (hp : p < 16384) : Fin cfg0.N :=
  ⟨p / 512 * 16 + 15, by rw [show cfg0.N = 512 from N_0]; omega⟩

/-- An index of the array is in point `t`'s block iff each coordinate is in the block's range. -/
theorem mem_blk (t : Fin cfg0.N) (i : S16384x1.Idx) :
    i ∈ ((cfg0.win 3).blk t).view.set
      ↔ ∀ a : Fin 2, win0_3.index t a * S512x1.size a ≤ (i a).val ∧ (i a).val < win0_3.index t a * S512x1.size a + S512x1.size a := by
  show i ∈ ((View.whole main_v9).slice (win0_3.rect t)).set ↔ _
  rw [View.set_slice_whole, Rect.mem_set_unit]
  exact Iff.rfl

/-- THE ARRAY after the region: every row's full sum. -/
theorem final (c : Dev nD) : (dats m 0 c).arrAt 3 cfg0.N = riskCol m c :=
  (dats m 0 c).arrAt_eq_of_cover 3 (riskCol m c) (flushed_eq m c) fun i => by
    have hi0 : (i 0).val < 16384 := idx2_lt0 i
    have hi1 : (i 1).val < 1 := idx2_lt1 i
    refine ⟨flushPoint (i 0).val hi0, (flush0_3 _).mpr (by show ((i 0).val / 512 * 16 + 15) % 16 = 15; omega), ?_⟩
    rw [mem_blk]
    obtain ⟨-, -, -, -, -, -, e0, e1⟩ := idx_facts (flushPoint (i 0).val hi0)
    have hv : (flushPoint (i 0).val hi0).val = (i 0).val / 512 * 16 + 15 := rfl
    intro a
    match a with
    | ⟨0, _⟩ =>
      show win0_3.index (flushPoint (i 0).val hi0) (0 : Fin 2) * 512 ≤ (i 0).val
        ∧ (i 0).val < win0_3.index (flushPoint (i 0).val hi0) (0 : Fin 2) * 512 + 512
      rw [e0, hv]; omega
    | ⟨1, _⟩ =>
      show win0_3.index (flushPoint (i 0).val hi0) (1 : Fin 2) * 1 ≤ (i 1).val
        ∧ (i 1).val < win0_3.index (flushPoint (i 0).val hi0) (1 : Fin 2) * 1 + 1
      rw [e1]; omega

end Cert.KernelIdeal.Risk

end
-- ==== Proof.Loss.lean ====
/-
  The loss both programs end with: from the scores `θ`, the event indicator `E` and the risk sums `rs`, all vectors
  of 16384, the scalar `-( (0 + ∑ i, (θ i - log (rs i)) * E i) / 16384 )` as the host computes it. Both programs
  compute it by the same host operations of the same words, so it is kept as one opaque function.
-/
import Idealize.ShloMosaic.PureOps.Ideal

noncomputable section

open Idealize.ShloMosaic

namespace Cert.RiskSum

/-- A vector of 16384 and the scalar shape. -/
abbrev V16384 : Shape := ⟨1, ![16384]⟩
abbrev Sc : Shape := ⟨0, ![]⟩

/-- The negated mean of `(θ - log rs) * E`. -/
def loss {F : FTy → Type} [FloatOps F] (hr : V16384.ReducesTo [0] Sc) (hs : 0 < Sc.numel)
    (θ E rs : FVec F V16384 .f32) : FVec F Sc .f32 :=
  Host.negf (Host.divf
    (Host.reduceAdd (mulf (subf θ (Host.log rs)) E) (constant (F := F) Sc .f32 0x00000000#32) hr hs)
    (constant (F := F) Sc .f32 0x46800000#32))

end Cert.RiskSum

end
-- ==== Proof.KernelRun.lean ====
/-
  The idealized kernel's run, read: after the region the host reshapes the column of risk sums to a vector and
  computes the loss from it, from the scores and from the event indicator, both written before the region and not
  touched by it. So the result is the loss of those three.
-/
import proofs.«179797_j26809185861688_1_alg».proof.Proof.ResultArray
import proofs.«179797_j26809185861688_1_alg».proof.Proof.Loss
import Idealize.ShloMosaic.Lib.StableHlo.Run

set_option maxRecDepth 16384

noncomputable section

open Idealize.ShloMosaic Idealize.ShloMosaic.TcCoe Idealize.ShloMosaic.ValueIdx
open Idealize.SL Idealize.SL.Sem
open Idealize.ShloMosaic.Pipeline (Dat)

namespace Cert.KernelIdeal.Risk

open Cert.KernelIdeal Cert.KernelIdeal.Gen Cert.RiskSum

variable (m : (ℓ : Loc nD τ sig) → Buf (Elt Ideal) ℓ) (ρ : Dev nD → PrngReg)

/-- The kernel's result: the loss of the scores, the event indicator and the column of risk sums as a vector. -/
def result (c : Dev nD) : FVec Ideal Sc .f32 :=
  loss reducesTo_S16384_S_d0 h_S_ (V m c main_v4) (V m c main_v3)
    (shapeCast S16384 (riskCol m c) shapeCasts_S16384x1_S16384)

/-- What the host operations after the region leave in the result buffer. -/
theorem tail_eq (c : Dev nD) :
    Pipeline.afterTail₀ cfgs (dats m) 0 (V0 m) [hostOps1] c main_v16 = result m c := by
  have e9 : Pipeline.withArrays (cfgs 0).spec c (V0 m c) (fun w => (dats m 0 c).arrAt w (cfgs 0).N) (Proc.tc.devRef main_v9)
      = riskCol m c :=
    (Pipeline.withArrays_arr spec0 launch0.win.arr_inj c _ _ 3).trans (final m c)
  have e4 : Pipeline.withArrays (cfgs 0).spec c (V0 m c) (fun w => (dats m 0 c).arrAt w (cfgs 0).N) (Proc.tc.devRef main_v4)
      = V m c main_v4 :=
    Pipeline.withArrays_of_ne _ c (V0 m c) _ main_v4 (by exact (by decide : ∀ w, Pipeline.arrRef spec0 w ≠ main_v4))
  have e3 : Pipeline.withArrays (cfgs 0).spec c (V0 m c) (fun w => (dats m 0 c).arrAt w (cfgs 0).N) (Proc.tc.devRef main_v3)
      = V m c main_v3 :=
    Pipeline.withArrays_of_ne _ c (V0 m c) _ main_v3 (by exact (by decide : ∀ w, Pipeline.arrRef spec0 w ≠ main_v3))
  unfold Pipeline.afterTail₀
  show StableHlo.after hostOps1 _ (Proc.devRef .tc main_v16) = _
  after_results
  rw [e9, e4, e3]
  rfl

/-- THE RUN: the result buffer at the loss, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Risk

end
-- ==== Proof.RefValue.lean ====
/-
  The reference, read.

  Its result is the loss of the scores, the event indicator and its own risk sums; and its risk sum at row `i` is
  `0 + ∑ k, exp (ŷ k) * [ |y k| ≥ |y i| ]`, the indicator a `1` or `0`: each product is the weight where the
  comparison holds and zero elsewhere.
-/
import proofs.«179797_j26809185861688_1_alg».proof.Proof.Gen.ReferenceIdeal.Read
import proofs.«179797_j26809185861688_1_alg».proof.Proof.MaskedSum
import proofs.«179797_j26809185861688_1_alg».proof.Proof.Loss
import Idealize.ShloMosaic.Lib.ValueIdx

noncomputable section

open Idealize.ShloMosaic Idealize.ShloMosaic.ValueIdx

namespace Cert.ReferenceIdeal.RefValue

open Cert.ReferenceIdeal Cert.ReferenceIdeal.Gen Cert.ReferenceIdeal.Read Cert.RiskSum

/-- The reference's result is the loss of its scores, its event indicator and its risk sums. -/
theorem result_eq_loss {F : FTy → Type} [FloatOps F] (x0 : (⟨S16384, .f32⟩ : BufTy).Contents (Elt F))
    (x1 : (⟨S16384x1, .f32⟩ : BufTy).Contents (Elt F)) :
    val_main_v21 (F := F) x0 x1
      = loss reducesTo_S16384_S_d0 h_S_ (val_main_v4 (F := F) x1) (val_main_v3 (F := F) x0) (val_main_v15 (F := F) x0 x1) := rfl

/-- The element of the 16384 × 16384 product at row `i`, column `k`. -/
theorem product_apply (x0 : (⟨S16384, .f32⟩ : BufTy).Contents (Elt Ideal)) (x1 : (⟨S16384x1, .f32⟩ : BufTy).Contents (Elt Ideal))
    (i k : Fin 16384) :
    val_main_v14 (F := Ideal) x0 x1 (idx_main_v15 (ix1 i) k)
      = FloatOps.hostUnary (F := Ideal) (φ := .f32) .exp (x1 (ix2 k 0))
        * (((Ideal.cmp .oge (FloatOps.hostAbsf (F := Ideal) (φ := .f32) (x0 (ix1 k))) (FloatOps.hostAbsf (F := Ideal) (φ := .f32) (x0 (ix1 i)))).toNat : ℝ) : EReal) := by
  have e1 : idx_main_v4 (idx_main_v12 (idx_main_v13 (idx_main_v15 (ix1 i) k))) = ix2 k 0 :=
    funext fun a => Fin.ext (by match a with | ⟨0, _⟩ => exact Nat.div_one _ | ⟨1, _⟩ => rfl)
  have e2 : idx_main_v5 (idx_main_v7 (idx_main_v15 (ix1 i) k)) = ix1 k :=
    funext fun a => Fin.ext (by match a with | ⟨0, _⟩ => rfl)
  have e3 : idx_main_v6 (idx_main_v8 (idx_main_v15 (ix1 i) k)) = ix1 i :=
    funext fun a => Fin.ext (by match a with | ⟨0, _⟩ => rfl)
  rw [val_main_v14_apply, val_main_v13_apply, val_main_v12_apply, val_main_v11_apply, val_main_v4_apply, e1,
    val_main_v10_apply, val_main_v9_apply, val_main_v7_apply, val_main_v5_apply, val_main_v0_apply, e2,
    val_main_v8_apply, val_main_v6_apply, val_main_v0_apply, e3]
  rfl

/-- The reference's risk sum at row `i`. -/
theorem risk_apply (x0 : (⟨S16384, .f32⟩ : BufTy).Contents (Elt Ideal)) (x1 : (⟨S16384x1, .f32⟩ : BufTy).Contents (Elt Ideal))
    (i : Fin 16384) :
    val_main_v15 (F := Ideal) x0 x1 (ix1 i)
      = 0 + ∑ k : Fin 16384, FloatOps.hostUnary (F := Ideal) (φ := .f32) .exp (x1 (ix2 k 0))
          * (((Ideal.cmp .oge (FloatOps.hostAbsf (F := Ideal) (φ := .f32) (x0 (ix1 k))) (FloatOps.hostAbsf (F := Ideal) (φ := .f32) (x0 (ix1 i)))).toNat : ℝ) : EReal) := by
  rw [val_main_v15_apply]
  refine congrArg₂ (· + ·) Ideal.ofBits_zero_f32 (Finset.sum_congr rfl fun k _ => ?_)
  exact product_apply x0 x1 i k

end Cert.ReferenceIdeal.RefValue

end
-- ==== Proof.Bridge.lean ====
/-
  The two results are one.

  Both programs end with the same loss of the same scores and event indicator; what remains is that their risk sums
  agree row by row. The kernel's row `p` is the sum over all columns `k` of "the weight `exp ŷ_k` where
  `|y_p| ≤ |y_k|`, else zero"; the reference's is `0 + ∑ k, exp ŷ_k * [|y_p| ≤ |y_k|]` with the indicator `1` or `0`.
  Term by term these are equal over the extended reals (`x * 1 = x`, `x * 0 = 0`), and `0 + s = s`.
-/
import proofs.«179797_j26809185861688_1_alg».proof.Proof.KernelRun
import proofs.«179797_j26809185861688_1_alg».proof.Proof.RefValue

noncomputable section

open Idealize.ShloMosaic Idealize.ShloMosaic.TcCoe Idealize.ShloMosaic.ValueIdx
open Idealize.SL Idealize.SL.Sem

namespace Cert.KernelIdeal.Risk

open Cert.KernelIdeal Cert.KernelIdeal.Gen Cert.RiskSum

variable (m : (ℓ : Loc nD τ sig) → Buf (Elt Ideal) ℓ)

/-- Row `p`'s masked weight in column `k`, from the arguments: the weight times the comparison's bit. -/
theorem masked_eq (c : Dev nD) (p k : Fin 16384) :
    masked m c p k
      = FloatOps.hostUnary (F := Ideal) (φ := .f32) .exp (m ((c : Thread nD τ).loc main_arg1) (ix2 k 0))
        * (((Ideal.cmp .oge (FloatOps.hostAbsf (F := Ideal) (φ := .f32) (m ((c : Thread nD τ).loc main_arg0) (ix1 k)))
              (FloatOps.hostAbsf (F := Ideal) (φ := .f32) (m ((c : Thread nD τ).loc main_arg0) (ix1 p)))).toNat : ℝ) : EReal) := by
  unfold masked
  rw [select_oge_eq_mul, tlane_eq, tcol_eq, wlane_eq, lane_apply, col_apply, lane_apply]
  show FloatOps.hostUnary (F := Ideal) (φ := .f32) .exp
      (shapeCast S16384 (m ((c : Thread nD τ).loc main_arg1)) shapeCasts_S16384x1_S16384 (ix1 k)) * _ = _
  rw [vec_of_col_apply]
  rfl

/-- THE RISK SUMS AGREE: the kernel's column, as a vector, is the reference's vector of risk sums. -/
theorem risk_agree (c : Dev nD) :
    shapeCast S16384 (riskCol m c) shapeCasts_S16384x1_S16384
      = Cert.ReferenceIdeal.Read.val_main_v15 (F := Ideal) (m ((c : Thread nD τ).loc main_arg0)) (m ((c : Thread nD τ).loc main_arg1)) := by
  funext i
  obtain ⟨p, rfl⟩ : ∃ p : Fin 16384, i = ix1 p := ⟨i 0, eq_ix1 i⟩
  rw [vec_of_col_apply]
  refine Eq.trans ?_ (Cert.ReferenceIdeal.RefValue.risk_apply _ _ p).symm
  rw [zero_add]
  show partialSum m c p 16384 = _
  unfold partialSum
  rw [sum_ext0]
  exact Finset.sum_congr rfl fun k _ => masked_eq m c p k

/-- THE RESULTS AGREE. -/
theorem result_eq_reference (c : Dev nD) :
    result m c = Cert.ReferenceIdeal.Read.val_main_v21 (F := Ideal) (m ((c : Thread nD τ).loc main_arg0)) (m ((c : Thread nD τ).loc main_arg1)) := by
  rw [Cert.ReferenceIdeal.RefValue.result_eq_loss]
  unfold result
  rw [V_scores, V_events, risk_agree]
  rfl

end Cert.KernelIdeal.Risk

end
-- ==== Proof.lean ====
/-
  The risk-set sums of a Cox partial likelihood: for each of 16384 rows `i`, the sum over the columns `j` with
  `|y_j| ≥ |y_i|` of `exp ŷ_j`, followed by the loss `-mean((ŷ - log risk) * [y > 0])`.

  The kernel walks a 32 × 16 grid: 512 rows against 1024 columns per point, the masked lane sums accumulated in a
  carried column that is reset at the first of each 16 points and copied out at the last. The reference forms the
  16384 × 16384 products `exp ŷ_j * [ |y_j| ≥ |y_i| ]` and sums each row at once. Over the extended reals a product
  with the indicator is the weight or zero (`x * 1 = x`, `x * 0 = 0` for every `x`), and a sum taken in 16 stretches
  is the sum; so the risk sums agree, and the loss is the same function of them on both sides. No finiteness of the
  inputs is used for the values.

  The frames of the two kernels are the generated ones; the reference's is its generated run. The ideal pass rewrote
  nothing, so `preserves` is trivial.
-/
import proofs.«179797_j26809185861688_1_alg».proof.Defs
import proofs.«179797_j26809185861688_1_alg».proof.Proof.Gen.Kernel
import proofs.«179797_j26809185861688_1_alg».proof.Proof.Gen.Kernel.Skeleton
import proofs.«179797_j26809185861688_1_alg».proof.Proof.Gen.Kernel.Launch
import proofs.«179797_j26809185861688_1_alg».proof.Proof.Gen.Kernel.Points
import proofs.«179797_j26809185861688_1_alg».proof.Proof.Gen.Kernel.Frame
import proofs.«179797_j26809185861688_1_alg».proof.Proof.Gen.KernelIdeal
import proofs.«179797_j26809185861688_1_alg».proof.Proof.Gen.KernelIdeal.Skeleton
import proofs.«179797_j26809185861688_1_alg».proof.Proof.Gen.KernelIdeal.Launch
import proofs.«179797_j26809185861688_1_alg».proof.Proof.Gen.KernelIdeal.Points
import proofs.«179797_j26809185861688_1_alg».proof.Proof.Gen.KernelIdeal.Frame
import proofs.«179797_j26809185861688_1_alg».proof.Proof.Gen.ReferenceIdeal
import proofs.«179797_j26809185861688_1_alg».proof.Proof.Gen.ReferenceIdeal.Run
import proofs.«179797_j26809185861688_1_alg».proof.Proof.Gen.ReferenceIdeal.Read
import proofs.«179797_j26809185861688_1_alg».proof.Proof.Gen.Pre_finite_inputs
import proofs.«179797_j26809185861688_1_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the loss of the scores, the event indicator and the risk sums of arguments that agree. -/
theorem algebraic : Cert.algebraic_KernelIdeal_ReferenceIdeal := by
  intro m ρ m' ρ' _ hagree
  refine ⟨fun c => Cert.KernelIdeal.Risk.result m c, Cert.KernelIdeal.Risk.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v21_eq]
  exact (Cert.KernelIdeal.Risk.result_eq_reference m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
